-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x1 : Shape := ⟨2, ![16, 1]⟩
abbrev S10000x16 : Shape := ⟨2, ![10000, 16]⟩
abbrev S400x10000 : Shape := ⟨2, ![400, 10000]⟩
abbrev S400x16 : Shape := ⟨2, ![400, 16]⟩
abbrev S16x400 : Shape := ⟨2, ![16, 400]⟩
abbrev S400 : Shape := ⟨1, ![400]⟩
abbrev S1x400 : Shape := ⟨2, ![1, 400]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S16x1, .f32⟩
  | .local _ .vmem, ⟨3, _⟩ => ⟨S400x10000, .f32⟩
  | .local _ .vmem, ⟨4, _⟩ => ⟨S400x10000, .f32⟩
  | .local _ .vmem, ⟨5, _⟩ => ⟨S400x16, .f32⟩
  | .local _ .vmem, ⟨6, _⟩ => ⟨S400x16, .f32⟩
  | .local _ .vmem, ⟨7, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S16x1 : S16.ShapeCasts S16x1
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x400 : S16x1.Broadcasts S16x400
  reduces_S16x400_S400 : S16x400.Reduces [0] S400
  shapeCasts_S400_S1x400 : S400.ShapeCasts S1x400
  broadcasts_S1x400_S16x400 : S1x400.Broadcasts S16x400
  transposes_S16x400_p1_0_S400x16 : S16x400.Transposes [1, 0] S400x16
  inb_S400x16_S400x16_0_0 : ∀ a, (![0, 0] : Fin 2 → Nat) a + S400x16.size a ≤ S400x16.size a
  h_S400x16 : 0 < S400x16.numel
  dot_S10000x128_S128x16_S10000x16_1_0_0_1_n_n_wf : DotDims.WF S10000x128 S128x16 S10000x16 [1] [0] [0] [1] [] []
  dot_S10000x16_S400x10000_S16x400_0_1_1_0_n_n_wf : DotDims.WF S10000x16 S400x10000 S16x400 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S400x10000_S16x400_0_1_1_0_n_n : DotDims S10000x16 S400x10000 S16x400 where
  lhsContracting := [0]
  rhsContracting := [1]
  lhsNonContracting := [1]
  rhsNonContracting := [0]
  lhsBatch := []
  rhsBatch := []
  wf := dot_S10000x16_S400x10000_S16x400_0_1_1_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S10000x1, .f32⟩
  | .hbm, ⟨22, _⟩ => ⟨S10000x16, .f32⟩
  | .hbm, ⟨23, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KPieces.lean ====
/-
  What one run of the kernel body leaves behind, case by case, as values.

  At grid point 0 the body first stores the product of its two small operands into the scratch buffer and then computes
  the point's output block from the scratch it has just written; at every later point it only reads the scratch the point
  before left. Each store covers its buffer whole, so what a buffer holds afterwards is the stored value itself.
-/
import proofs.«138771_g8718783611330_retrytranche1_1952_15_alg».proof.Proof.Gen.KernelIdeal.Frame
import Idealize.ShloMosaic.Lib.Pipeline.Value
import Idealize.ShloMosaic.Lib.Tactic

noncomputable section

namespace Cert.KernelIdeal.GcnValue

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Point 0 leaves in the scratch the first store's value: the product of the two operands it loaded whole. -/
theorem scratch_A (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S10000x16 .f32) (harg6 : arg6.IsWhole) (hc0 : cond0_0 i)
    (x0 : Vec F S10000x128 .f32) (x1 : Vec F S128x16 .f32) (x2 : Vec F S16x1 .f32) (x3 : Vec F S400x10000 .f32) :
    sout0_A_0 c i arg1 harg1 arg2 harg2 arg3 harg3 arg4 harg4 arg5 harg5 arg6 harg6 hc0 x0 x1 x2 x3 = k0_pay1 x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, View.ld_unit_zero (S := S10000x128) hz, View.ld_unit_zero (S := S128x16) hz]

/-- Point 0 leaves in the output's buffer the second store's value, computed from the scratch it wrote a moment before
    (the load of the scratch reads back the covering store). -/
theorem out_A (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S10000x16 .f32) (harg6 : arg6.IsWhole) (hc0 : cond0_0 i)
    (x0 : Vec F S10000x128 .f32) (x1 : Vec F S128x16 .f32) (x2 : Vec F S16x1 .f32) (x3 : Vec F S400x10000 .f32) :
    out0_A_4 c i arg1 harg1 arg2 harg2 arg3 harg3 arg4 harg4 arg5 harg5 arg6 harg6 hc0 x0 x1 x2 x3 = k0_pay2 (k0_pay1 x0 x1) x3 x2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S10000x128) hz, View.ld_unit_zero (S := S128x16) hz, View.ld_unit_zero (S := S16x1) hz, View.ld_unit_zero (S := S400x10000) hz, View.ld_unit_zero (S := S10000x16) hz, View.readCov_unit_zero (S := S10000x16) _ hz]

/-- A later point leaves in the output's buffer the second store's value, computed from the scratch `xs0` it found. -/
theorem out_B (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S10000x16 .f32) (harg6 : arg6.IsWhole) (hc0 : ¬cond0_0 i)
    (x0 : Vec F S10000x128 .f32) (x1 : Vec F S128x16 .f32) (x2 : Vec F S16x1 .f32) (x3 : Vec F S400x10000 .f32) (xs0 : Vec F S10000x16 .f32) :
    out0_B_4 c i arg1 harg1 arg2 harg2 arg3 harg3 arg4 harg4 arg5 harg5 arg6 harg6 hc0 x0 x1 x2 x3 xs0 = k0_pay2 xs0 x3 x2 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero hz]
  simp only [View.readAt_eq_ld, harg6.read_unread, harg3.read_unread, harg4.read_unread, View.ld_unit_zero (S := S16x1) hz, View.ld_unit_zero (S := S400x10000) hz, View.ld_unit_zero (S := S10000x16) hz]

end Cert.KernelIdeal.GcnValue

end
-- ==== Proof.KInv.lean ====
/-
  What the scratch and the output's buffer hold after each grid point.

  The three small operands' windows never move: at every point their blocks are the whole arrays `x`, `W` and the bias
  column. So the scratch, written at point 0 and only read afterwards, holds `x · W` after every point (by induction on
  the point), and the output's buffer after point `t` holds the stored block computed from that product, the point's
  adjacency block and the bias column.
-/
import proofs.«138771_g8718783611330_retrytranche1_1952_15_alg».proof.Proof.KPieces

noncomputable section

namespace Cert.KernelIdeal.GcnValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The arrays as the region finds them, each at its literal type. -/
abbrev xarr (c : Dev nD) : Vec F S10000x128 .f32 := V m c main_arg0
abbrev warr (c : Dev nD) : Vec F S128x16 .f32 := V m c main_arg2
abbrev bcol (c : Dev nD) : Vec F S16x1 .f32 := V m c main_v0
abbrev adjarr (c : Dev nD) : Vec F S10000x10000 .f32 := V m c main_arg1
/-- The adjacency block of point `t`. -/
abbrev ablk (c : Dev nD) (t : Fin cfg0.N) : Vec F S400x10000 .f32 := iblk m c 3 t

/-- The printed index maps over the 25 points: the three small windows stay at block (0, 0); the adjacency window and the
    output window are at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block is all of `x` at every point. -/
theorem iblk0_eq (c : Dev nD) (t : Fin cfg0.N) : (iblk m c 0 t : Vec F S10000x128 .f32) = xarr m c := by
  obtain ⟨e0, e1, -⟩ := idx_facts t
  funext j
  unfold iblk
  rw [View.read_apply]
  show V m c main_arg0 _ = V m c main_arg0 j
  congr 1
  funext a
  apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- Window 1's block is all of `W` at every point. -/
theorem iblk1_eq (c : Dev nD) (t : Fin cfg0.N) : (iblk m c 1 t : Vec F S128x16 .f32) = warr m c := by
  obtain ⟨-, -, e0, e1, -⟩ := idx_facts t
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 16 + 1 * (j 1).val = (j 1).val; rw [e1]; omega

/-- Window 2's block is the whole bias column at every point. -/
theorem iblk2_eq (c : Dev nD) (t : Fin cfg0.N) : (iblk m c 2 t : Vec F S16x1 .f32) = bcol m c := by
  obtain ⟨-, -, -, -, e0, e1, -⟩ := idx_facts t
  funext j
  unfold iblk
  rw [View.read_apply]
  show V m c main_v0 _ = V m c main_v0 j
  congr 1
  funext a
  apply Fin.ext
  match a with
  | ⟨0, _⟩ => show win0_2.index t (0 : Fin 2) * 16 + 1 * (j 0).val = (j 0).val; rw [e0]; omega
  | ⟨1, _⟩ => show win0_2.index t (1 : Fin 2) * 1 + 1 * (j 1).val = (j 1).val; rw [e1]; omega

/-- The adjacency block of point `t` holds rows 400·t … 400·t + 399 of the adjacency as the region finds it. -/
theorem ablk_apply (c : Dev nD) (t : Fin cfg0.N) (j : S400x10000.Idx) (i : S10000x10000.Idx)
    (h0 : (i 0).val = 400 * t.val + (j 0).val) (h1 : (i 1).val = (j 1).val) :
    ablk m c t j = adjarr m c i := by
  obtain ⟨-, -, -, -, -, -, e0, e1, -⟩ := idx_facts t
  show iblk m c 3 t j = V m c main_arg1 i
  unfold iblk
  rw [View.read_apply]
  show V m c main_arg1 _ = V m c main_arg1 i
  congr 1
  funext a
  apply Fin.ext
  match a with
  | ⟨0, _⟩ => show win0_3.index t (0 : Fin 2) * 400 + 1 * (j 0).val = (i 0).val; rw [e0, h0]; omega
  | ⟨1, _⟩ => show win0_3.index t (1 : Fin 2) * 10000 + 1 * (j 1).val = (i 1).val; rw [e1, h1]; omega

/-- After every point the scratch holds the product of `x` and `W`: point 0 stores it, the later points leave it. -/
theorem scratch_eq (c : Dev nD) : ∀ (n : ℕ) (h : n < cfg0.N), (outsAt0 m c n h).2 = k0_pay1 (xarr m c) (warr m c)
  | 0, h => by
    rw [outsAt0_A m c ⟨0, h⟩ rfl]
    dsimp only
    refine (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)).trans ?_
    rw [iblk0_eq, iblk1_eq]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- After point `t` the output's buffer holds the block stored from `x · W`, the point's adjacency block and the bias column. -/
theorem out_eq (c : Dev nD) (t : Fin cfg0.N) :
    (outsAt0 m c t.val t.isLt).1 = k0_pay2 (k0_pay1 (xarr m c) (warr m c)) (ablk m c t) (bcol m c) := by
  by_cases h0 : t.val % 25 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    rw [iblk0_eq, iblk1_eq, iblk2_eq]
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _).trans ?_
    rw [scratch_eq, iblk2_eq]

end Cert.KernelIdeal.GcnValue

end
-- ==== Proof.KPayload.lean ====
/-
  The kernel body's two stored values, read at an index over the extended reals.

  The first store (grid point 0 only) leaves `x · W` in the scratch: entry (n, c) is `∑ₖ x n k · W k c`.
  The second store, at every point, leaves the point's 400 output rows: from the scratch `s` (10000 × 16), the point's
  adjacency block `a` (400 × 10000) and the bias column `b₂` (16 × 1) the body forms the class-major tile
  `tile c r = (∑ₙ s n c · a r n) + b₂ c`, takes each column's maximum over the 16 classes, subtracts it, takes the
  logarithm of the column's sum of exponentials, subtracts that, and transposes: entry (r, c) of the stored block is
  `(tile c r - max_c' tile c' r) - log (∑_c' exp (tile c' r - max_c'' tile c'' r))`.
-/
import proofs.«138771_g8718783611330_retrytranche1_1952_15_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GcnValue

open Idealize.ShloMosaic Idealize.ShloMosaic.ValueIdx
open Cert.KernelIdeal Cert.KernelIdeal.Gen

/-! ## The first product: the scratch is `x · W` -/

theorem lhs_xw_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_xw_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_xw_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_xw_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The stored scratch at (n, c): the row of `x` against the column of `W`. -/
theorem xw_apply (x : Vec Ideal S10000x128 .f32) (W : Vec Ideal S128x16 .f32) (n : Fin 10000) (c : Fin 16) :
    k0_pay1 (F := Ideal) x W (ix2 n c) = ∑ k : Fin 128, x (ix2 n k) * W (ix2 k c) := by
  unfold k0_pay1
  simp only [shapeCast_self, matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 n c) ((contrEquiv1 dot_S10000x128_S128x16_S10000x16_1_0_0_1_n_n 128 rfl rfl).symm k) = ix2 n k := funext fun a => Fin.ext (by
    match a with
    | ⟨0, _⟩ => exact lhs_xw_0 _ _
    | ⟨1, _⟩ => exact (lhs_xw_1 _ _).trans hk)
  have er : dot_S10000x128_S128x16_S10000x16_1_0_0_1_n_n.rhsIdx (ix2 n c) ((contrEquiv1 dot_S10000x128_S128x16_S10000x16_1_0_0_1_n_n 128 rfl rfl).symm k) = ix2 k c := funext fun a => Fin.ext (by
    match a with
    | ⟨0, _⟩ => exact (rhs_xw_0 _ _).trans hk
    | ⟨1, _⟩ => exact rhs_xw_1 _ _)
  rw [el, er]

/-! ## The second product and the bias: the class-major tile -/

theorem lhs_sa_0 (i : S16x400.Idx) (q : dot_S10000x16_S400x10000_S16x400_0_1_1_0_n_n.contr.Idx) :
    (dot_S10000x16_S400x10000_S16x400_0_1_1_0_n_n.lhsIdx i q 0).val = (q ⟨0, by decide⟩).val :=
  dot_S10000x16_S400x10000_S16x400_0_1_1_0_n_n.lhsIdx_val_of_single rfl i q
theorem lhs_sa_1 (i : S16x400.Idx) (q : dot_S10000x16_S400x10000_S16x400_0_1_1_0_n_n.contr.Idx) :
    (dot_S10000x16_S400x10000_S16x400_0_1_1_0_n_n.lhsIdx i q 1).val = (i 0).val := by
  unfold DotDims.lhsIdx
  rw [dif_neg (show ¬(1 : Fin S10000x16.rank) ∈ dot_S10000x16_S400x10000_S16x400_0_1_1_0_n_n.lhsBatch by decide), dif_pos (show (1 : Fin S10000x16.rank) ∈ dot_S10000x16_S400x10000_S16x400_0_1_1_0_n_n.lhsNonContracting by decide)]
  rfl
theorem rhs_sa_0 (i : S16x400.Idx) (q : dot_S10000x16_S400x10000_S16x400_0_1_1_0_n_n.contr.Idx) :
    (dot_S10000x16_S400x10000_S16x400_0_1_1_0_n_n.rhsIdx i q 0).val = (i 1).val := by
  unfold DotDims.rhsIdx
  rw [dif_neg (show ¬(0 : Fin S400x10000.rank) ∈ dot_S10000x16_S400x10000_S16x400_0_1_1_0_n_n.rhsBatch by decide), dif_pos (show (0 : Fin S400x10000.rank) ∈ dot_S10000x16_S400x10000_S16x400_0_1_1_0_n_n.rhsNonContracting by decide)]
  rfl
theorem rhs_sa_1 (i : S16x400.Idx) (q : dot_S10000x16_S400x10000_S16x400_0_1_1_0_n_n.contr.Idx) :
    (dot_S10000x16_S400x10000_S16x400_0_1_1_0_n_n.rhsIdx i q 1).val = (q ⟨0, by decide⟩).val :=
  dot_S10000x16_S400x10000_S16x400_0_1_1_0_n_n.rhsIdx_val_of_single rfl i q

/-- A 16 × 1 column broadcast along 400 lanes reads, at (c, r), the column's entry c. -/
theorem bcast_col_apply (v : (⟨2, ![16, 1]⟩ : Shape).Idx → EReal) (h : (⟨2, ![16, 1]⟩ : Shape).Broadcasts ⟨2, ![16, 400]⟩)
    (c : Fin 16) (r : Fin 400) : broadcastTo ⟨2, ![16, 400]⟩ v h (ix2 c r) = v (ix2 c (0 : Fin 1)) := by
  refine broadcastTo_apply v h (ix2 c r) (ix2 c (0 : Fin 1)) fun ax => ?_
  match ax with
  | ⟨0, _⟩ => rfl
  | ⟨1, _⟩ => rfl

variable {F : FTy → Type} [FloatOps F]

/-- The logits of the point's 400 rows, class-major: the scratch contracted with the adjacency block over the nodes, plus
    the bias column along the lanes. -/
def tile (s : Vec F S10000x16 .f32) (a : Vec F S400x10000 .f32) (b2 : Vec F S16x1 .f32) : FVec F S16x400 .f32 :=
  addf (matmul dot_S10000x16_S400x10000_S16x400_0_1_1_0_n_n none s a (constant S16x400 .f32 0x00000000#32))
    (broadcastTo S16x400 (shapeCast S16x1 b2 shapeCasts_S16x1_S16x1) broadcasts_S16x1_S16x400)

/-- Each lane's maximum over the 16 classes. -/
def laneMax (v : FVec F S16x400 .f32) : FVec F S400 .f32 :=
  multiReduction .maximumf [0] S400 v 0xFF800000#32 reduces_S16x400_S400 (.inl rfl) rfl

/-- The tile with each lane's maximum taken off. -/
def shiftT (v : FVec F S16x400 .f32) : FVec F S16x400 .f32 :=
  subf v (broadcastTo S16x400 (shapeCast S1x400 (laneMax v) shapeCasts_S400_S1x400) broadcasts_S1x400_S16x400)

/-- The logarithm of each lane's sum of exponentials, as a row. -/
def laneLse (v : FVec F S16x400 .f32) : FVec F S1x400 .f32 :=
  log (shapeCast S1x400 (multiReduction .add [0] S400 (exp v) 0x00000000#32 reduces_S16x400_S400 (.inl rfl) rfl) shapeCasts_S400_S1x400)

/-- The stored block is the transposed, twice-normalised tile. -/
theorem pay2_eq (s : Vec F S10000x16 .f32) (a : Vec F S400x10000 .f32) (b2 : Vec F S16x1 .f32) :
    k0_pay2 s a b2 = transpose S400x16 [1, 0]
      (subf (shiftT (tile s a b2)) (broadcastTo S16x400 (laneLse (shiftT (tile s a b2))) broadcasts_S1x400_S16x400))
      transposes_S16x400_p1_0_S400x16 := rfl

/-- The reduced axis put back: lane `r` with class `k` inserted is the tile's index (k, r). -/
theorem lift_lane (r : Fin 400) (k : Fin 16) : reduces_S16x400_S400.lift (ix1 r) k = ix2 k r :=
  funext fun a => Fin.ext (by match a with | ⟨0, _⟩ => rfl | ⟨1, _⟩ => rfl)

theorem tile_apply (s : Vec Ideal S10000x16 .f32) (a : Vec Ideal S400x10000 .f32) (b2 : Vec Ideal S16x1 .f32) (c : Fin 16) (r : Fin 400) :
    tile (F := Ideal) s a b2 (ix2 c r) = (∑ n : Fin 10000, s (ix2 n c) * a (ix2 r n)) + b2 (ix2 c (0 : Fin 1)) := by
  unfold tile
  rw [addf_apply, shapeCast_self, bcast_col_apply]
  refine congrArg (· + _) ?_
  simp only [matmul]
  rw [Ideal.matmul_constant_zero_apply, ← Equiv.sum_comp (contrEquiv1 dot_S10000x16_S400x10000_S16x400_0_1_1_0_n_n 10000 rfl rfl).symm]
  refine Finset.sum_congr rfl fun k _ => ?_
  have hk := contrEquiv1_symm_val dot_S10000x16_S400x10000_S16x400_0_1_1_0_n_n 10000 rfl rfl k
  have el : dot_S10000x16_S400x10000_S16x400_0_1_1_0_n_n.lhsIdx (ix2 c r) ((contrEquiv1 dot_S10000x16_S400x10000_S16x400_0_1_1_0_n_n 10000 rfl rfl).symm k) = ix2 k c := funext fun ax => Fin.ext (by
    match ax with
    | ⟨0, _⟩ => exact (lhs_sa_0 _ _).trans hk
    | ⟨1, _⟩ => exact lhs_sa_1 _ _)
  have er : dot_S10000x16_S400x10000_S16x400_0_1_1_0_n_n.rhsIdx (ix2 c r) ((contrEquiv1 dot_S10000x16_S400x10000_S16x400_0_1_1_0_n_n 10000 rfl rfl).symm k) = ix2 r k := funext fun ax => Fin.ext (by
    match ax with
    | ⟨0, _⟩ => exact rhs_sa_0 _ _
    | ⟨1, _⟩ => exact (rhs_sa_1 _ _).trans hk)
  rw [el, er]

theorem laneMax_apply (v : FVec Ideal S16x400 .f32) (r : Fin 400) :
    laneMax (F := Ideal) v (ix1 r) = (Finset.univ : Finset (Fin 16)).fold max (Ideal.ofBits .f32 0xFF800000#32) (fun c => v (ix2 c r)) := by
  unfold laneMax
  refine (Ideal.multiReduction_maximumf_single v 0xFF800000#32 reduces_S16x400_S400 (.inl rfl) rfl (ix1 r)).trans ?_
  exact congrArg (fun f => (Finset.univ : Finset (Fin 16)).fold max (Ideal.ofBits .f32 0xFF800000#32) f)
    (funext fun k => congrArg v (lift_lane r k))

theorem shiftT_apply (v : FVec Ideal S16x400 .f32) (c : Fin 16) (r : Fin 400) :
    shiftT (F := Ideal) v (ix2 c r) = v (ix2 c r) - laneMax (F := Ideal) v (ix1 r) := by
  unfold shiftT
  rw [subf_apply, broadcastTo_1b_ab_apply, shapeCast_a_1a_apply]

theorem laneLse_apply (v : FVec Ideal S16x400 .f32) (u : Fin 1) (r : Fin 400) :
    laneLse (F := Ideal) v (ix2 u r) = Ideal.log (∑ c : Fin 16, Ideal.exp (v (ix2 c r))) := by
  unfold laneLse
  show Ideal.log (shapeCast S1x400 _ shapeCasts_S400_S1x400 (ix2 u r)) = _
  rw [shapeCast_a_1a_apply]
  refine congrArg Ideal.log ((Ideal.multiReduction_add_single (exp v) 0x00000000#32 reduces_S16x400_S400 (.inl rfl) rfl (ix1 r)).trans ?_)
  exact Finset.sum_congr rfl fun k _ => congrArg (fun i => Ideal.exp (v i)) (lift_lane r k)

/-- The stored block at (r, c), over the scratch `s`, the adjacency block `a` and the bias column `b2`. -/
theorem pay2_apply (s : Vec Ideal S10000x16 .f32) (a : Vec Ideal S400x10000 .f32) (b2 : Vec Ideal S16x1 .f32) (r : Fin 400) (c : Fin 16) :
    k0_pay2 (F := Ideal) s a b2 (ix2 r c)
      = (tile (F := Ideal) s a b2 (ix2 c r) - laneMax (F := Ideal) (tile s a b2) (ix1 r))
        - Ideal.log (∑ c' : Fin 16, Ideal.exp (tile (F := Ideal) s a b2 (ix2 c' r) - laneMax (F := Ideal) (tile s a b2) (ix1 r))) := by
  rw [pay2_eq, transpose_ix2_apply, subf_apply, broadcastTo_1b_ab_apply, laneLse_apply, shiftT_apply]
  refine congrArg (fun z => _ - Ideal.log z) (Finset.sum_congr rfl fun c' _ => ?_)
  rw [shiftT_apply]

end Cert.KernelIdeal.GcnValue

end
-- ==== Proof.Spec.lean ====
/-
  The function both programs compute, index by index, over the extended reals.

  A graph-convolution layer followed by a row-wise log-softmax: with `x` the node features (10000 × 128), `adj` the dense
  adjacency (10000 × 10000), `W` the weights (128 × 16) and `b` the bias (16),

    support n c = ∑ₖ x n k · W k c
    logit r c   = (∑ₙ adj r n · support n c) + b c
    rowMax r    = max over the 16 classes of logit r ·, folded from the f32 pattern of -∞
    shifted r c = logit r c - rowMax r
    result r c  = shifted r c - log (∑_c' exp (shifted r c'))

  Nothing here mentions a program; the two sides are each shown to be `result`.
-/
import Idealize.ShloMosaic.PureOps.Ideal
import Idealize.ShloMosaic.PureOps.Ideal.Laws
import Idealize.ShloMosaic.Lib.ValueIdx
import Mathlib.Data.Finset.Fold

noncomputable section

namespace Cert.GcnSpec

open Idealize.ShloMosaic Idealize.ShloMosaic.ValueIdx

/-- The four argument arrays, as functions of their indices into the extended reals. -/
abbrev XArr := (⟨2, ![10000, 128]⟩ : Shape).Idx → EReal
abbrev AdjArr := (⟨2, ![10000, 10000]⟩ : Shape).Idx → EReal
abbrev WArr := (⟨2, ![128, 16]⟩ : Shape).Idx → EReal
abbrev BArr := (⟨1, ![16]⟩ : Shape).Idx → EReal

/-- The f32 pattern of -∞, the value both maxima are folded from; it is never evaluated. -/
abbrev negInf : EReal := Ideal.ofBits .f32 0xFF800000#32

/-- `x · W` at node `n`, class `c`. -/
def support (x : XArr) (W : WArr) (n : Fin 10000) (c : Fin 16) : EReal :=
  ∑ k : Fin 128, x (ix2 n k) * W (ix2 k c)

/-- `adj · (x · W) + b` at row `r`, class `c`. -/
def logit (x : XArr) (adj : AdjArr) (W : WArr) (b : BArr) (r : Fin 10000) (c : Fin 16) : EReal :=
  (∑ n : Fin 10000, adj (ix2 r n) * support x W n c) + b (ix1 c)

/-- The largest logit of row `r`. -/
def rowMax (x : XArr) (adj : AdjArr) (W : WArr) (b : BArr) (r : Fin 10000) : EReal :=
  (Finset.univ : Finset (Fin 16)).fold max negInf (fun c => logit x adj W b r c)

/-- A logit with its row's maximum taken off. -/
def shifted (x : XArr) (adj : AdjArr) (W : WArr) (b : BArr) (r : Fin 10000) (c : Fin 16) : EReal :=
  logit x adj W b r c - rowMax x adj W b r

/-- The logarithm of the row's sum of exponentials of the shifted logits. -/
def logSumExp (x : XArr) (adj : AdjArr) (W : WArr) (b : BArr) (r : Fin 10000) : EReal :=
  Ideal.log (∑ c : Fin 16, Ideal.exp (shifted x adj W b r c))

/-- The log-softmax of the graph convolution, as one array. -/
def result (x : XArr) (adj : AdjArr) (W : WArr) (b : BArr) : (⟨2, ![10000, 16]⟩ : Shape).Idx → EReal :=
  fun i => shifted x adj W b (i 0) (i 1) - logSumExp x adj W b (i 0)

theorem result_ix2 (x : XArr) (adj : AdjArr) (W : WArr) (b : BArr) (r : Fin 10000) (c : Fin 16) :
    result x adj W b (ix2 r c) = shifted x adj W b r c - logSumExp x adj W b r := rfl

/-- Folding `max` from a value never goes below that value, so taking the maximum with it again changes nothing. -/
theorem max_fold_self {ι : Type*} (s : Finset ι) (a : EReal) (f : ι → EReal) : max a (s.fold max a f) = s.fold max a f :=
  max_eq_right ((Finset.le_fold_max a).mpr (Or.inl le_rfl))

end Cert.GcnSpec

end
-- ==== Proof.KBlock.lean ====
/-
  One point's stored block is the matching 400 rows of the log-softmax of the graph convolution.

  Take the scratch to hold `x · W`, the adjacency block to be rows 400·T … 400·T + 399 of `adj`, and the bias column to
  hold `b`. Then the tile's entry (c, r) is the logit of row 400·T + r and class c — the two products differ only in the
  order of each product's two factors —, the lane maximum is that row's maximum, and the stored entry (r, c) is the
  specification's entry (400·T + r, c).
-/
import proofs.«138771_g8718783611330_retrytranche1_1952_15_alg».proof.Proof.KPayload
import proofs.«138771_g8718783611330_retrytranche1_1952_15_alg».proof.Proof.Spec

noncomputable section

namespace Cert.KernelIdeal.GcnValue

open Idealize.ShloMosaic Idealize.ShloMosaic.ValueIdx
open Cert.KernelIdeal Cert.KernelIdeal.Gen Cert.GcnSpec

/-- Row `r` of block `T`, as a row of the whole array. -/
abbrev rowOf (T : ℕ) (hT : T < 25) (r : Fin 400) : Fin 10000 := ⟨400 * T + r.val, by have := r.isLt; omega⟩

theorem block_apply (s : Vec Ideal S10000x16 .f32) (a : Vec Ideal S400x10000 .f32) (b2 : Vec Ideal S16x1 .f32)
    (x : XArr) (adj : AdjArr) (W : WArr) (b : BArr) (T : ℕ) (hT : T < 25)
    (hs : ∀ (n : Fin 10000) (c : Fin 16), s (ix2 n c) = support x W n c)
    (ha : ∀ (r : Fin 400) (n : Fin 10000), a (ix2 r n) = adj (ix2 (rowOf T hT r) n))
    (hb : ∀ c : Fin 16, b2 (ix2 c (0 : Fin 1)) = b (ix1 c))
    (p : Fin 400) (q : Fin 16) :
    k0_pay2 (F := Ideal) s a b2 (ix2 p q) = result x adj W b (ix2 (rowOf T hT p) q) := by
  have ht : ∀ c' : Fin 16, tile (F := Ideal) s a b2 (ix2 c' p) = logit x adj W b (rowOf T hT p) c' := fun c' => by
    rw [tile_apply, hb]
    unfold logit
    refine congrArg (· + _) (Finset.sum_congr rfl fun n _ => ?_)
    rw [hs, ha, mul_comm]
  have hm : laneMax (F := Ideal) (tile s a b2) (ix1 p) = rowMax x adj W b (rowOf T hT p) := by
    rw [laneMax_apply]
    unfold rowMax
    exact congrArg (fun f => (Finset.univ : Finset (Fin 16)).fold max negInf f) (funext ht)
  rw [pay2_apply, result_ix2, hm, ht]
  unfold logSumExp shifted
  refine congrArg (fun z => _ - Ideal.log z) (Finset.sum_congr rfl fun c' _ => ?_)
  rw [ht]

end Cert.KernelIdeal.GcnValue

end
-- ==== Proof.KFinal.lean ====
/-
  From the blocks to the whole array: the kernel's run ends with the specification in its result array.

  Point `t` writes back rows 400·t … 400·t + 399; by the per-point value and the block lemma these are the matching rows
  of the specification of the four arguments as launched. Every row lies in exactly the block of the point `row / 400`,
  so the 25 blocks cover the array and the array ends holding the specification.
-/
import proofs.«138771_g8718783611330_retrytranche1_1952_15_alg».proof.Proof.KInv
import proofs.«138771_g8718783611330_retrytranche1_1952_15_alg».proof.Proof.KBlock
import proofs.«138771_g8718783611330_retrytranche1_1952_15_alg».proof.Proof.Gen.KernelIdeal.Value
import Idealize.ShloMosaic.Lib.StableHlo.Run

noncomputable section

namespace Cert.KernelIdeal.GcnValue

open Idealize.ShloMosaic Idealize.ShloMosaic.TcCoe Idealize.SL.Sem Idealize.ShloMosaic.ValueIdx
open Idealize.ShloMosaic.Pipeline (Dat)
open Cert.KernelIdeal Cert.KernelIdeal.Gen Cert.GcnSpec

variable (m : (ℓ : Loc nD τ sig) → Buf (Elt Ideal) ℓ) (ρ : Dev nD → PrngReg)

/-- The specification of the four arguments as launched on core `c`. -/
abbrev kres (c : Dev nD) : S10000x16.Idx → EReal :=
  result (m ((c : Thread nD τ).loc main_arg0)) (m ((c : Thread nD τ).loc main_arg1)) (m ((c : Thread nD τ).loc main_arg2)) (m ((c : Thread nD τ).loc main_arg3))

/-- The bias column the region finds is the bias reshaped: entry (q, 0) is `b q`. -/
theorem bcol_apply (c : Dev nD) (q : Fin 16) : bcol m c (ix2 q (0 : Fin 1)) = (m ((c : Thread nD τ).loc main_arg3)) (ix1 q) := by
  have e : (V m c main_v0 : S16x1.Idx → EReal) = shapeCast S16x1 (m ((c : Thread nD τ).loc main_arg3)) shapeCasts_S16_S16x1 := by
    dsimp only [Gen.V, Gen.hostOps0]; after_results; rfl
  show V m c main_v0 (ix2 q (0 : Fin 1)) = _
  rw [e]
  exact shapeCast_apply _ _ _ _ (by
    show (S16.rowMajor (ix1 q)).val = (S16x1.rowMajor (ix2 q (0 : Fin 1))).val
    rw [Shape.rowMajor_val_one, Shape.rowMajor_val_two]
    show q.val = q.val * 1 + 0
    omega)

/-- WHAT POINT `t` WRITES BACK is block `t` of the specification. -/
theorem flushed_eq (c : Dev nD) (t : Fin cfg0.N) :
    (dats m 0 c).flushed 4 t = ((cfg0.win 4).blk t).view.read (Elt Ideal) (kres m c) := by
  rw [Cert.KernelIdeal.Value.flushed4, out_eq]
  have hN : t.val < 25 := lt_of_lt_of_eq t.isLt N_0
  obtain ⟨-, -, -, -, -, -, -, -, e0, e1⟩ := idx_facts t
  refine funext fun (j : S400x16.Idx) => ?_
  show k0_pay2 (F := Ideal) (k0_pay1 (xarr m c) (warr m c)) (ablk m c t) (bcol m c) j = kres m c (((cfg0.win 4).blk t).view.emb j)
  obtain ⟨p, q, rfl⟩ : ∃ (p : Fin 400) (q : Fin 16), j = ix2 p q := ⟨j 0, j 1, eq_ix2 j⟩
  refine (block_apply _ _ _ (m ((c : Thread nD τ).loc main_arg0)) (m ((c : Thread nD τ).loc main_arg1)) (m ((c : Thread nD τ).loc main_arg2)) (m ((c : Thread nD τ).loc main_arg3)) t.val hN ?hs ?ha ?hb p q).trans ?_
  case hs =>
    intro n c'
    rw [xw_apply]
    unfold support
    refine Finset.sum_congr rfl fun k _ => ?_
    exact congrArg₂ (· * ·) (congrFun (V_main_arg0 m c) (ix2 n k)) (congrFun (V_main_arg2 m c) (ix2 k c'))
  case ha =>
    intro r n
    refine (ablk_apply m c t (ix2 r n) (ix2 (rowOf t.val hN r) n) rfl rfl).trans ?_
    exact congrFun (V_main_arg1 m c) _
  case hb => exact fun q' => bcol_apply m c q'
  refine congrArg (kres m c) (funext fun a => Fin.ext ?_)
  match a with
  | ⟨0, _⟩ => show 400 * t.val + p.val = win0_4.index t (0 : Fin 2) * 400 + 1 * p.val; rw [e0]; omega
  | ⟨1, _⟩ => show q.val = win0_4.index t (1 : Fin 2) * 16 + 1 * q.val; rw [e1]; omega

/-- An index of the array is in point `t`'s block iff each coordinate is in the block's range on its axis. -/
theorem mem_blk (t : Fin cfg0.N) (i : S10000x16.Idx) :
    i ∈ ((cfg0.win 4).blk t).view.set ↔ ∀ a : Fin 2, win0_4.index t a * S400x16.size a ≤ (i a).val ∧ (i a).val < win0_4.index t a * S400x16.size a + S400x16.size a := by
  show i ∈ ((View.whole main_v1).slice (win0_4.rect t)).set ↔ _
  rw [View.set_slice_whole, Rect.mem_set_unit]
  exact Iff.rfl

/-- Every row is in the block of the point `row / 400`. -/
theorem covered (i : S10000x16.Idx) : ∃ t : Fin cfg0.N, (cfg0.win 4).flush t = true ∧ i ∈ ((cfg0.win 4).blk t).view.set := by
  have h0 : (i 0).val < 10000 := (i 0).isLt
  have h1 : (i 1).val < 16 := (i 1).isLt
  have hN : cfg0.N = 25 := N_0
  let t : Fin cfg0.N := ⟨(i 0).val / 400, by rw [hN]; omega⟩
  obtain ⟨-, -, -, -, -, -, -, -, e0, e1⟩ := idx_facts t
  have ht : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; rw [e0, ht]; omega
  | ⟨1, _⟩ => show win0_4.index t (1 : Fin 2) * 16 ≤ (i 1).val ∧ (i 1).val < win0_4.index t (1 : Fin 2) * 16 + 16; rw [e1]; omega

/-- THE ARRAY after the run is the specification of the arguments. -/
theorem final (c : Dev nD) : (dats m 0 c).arrAt 4 cfg0.N = kres m c :=
  (dats m 0 c).arrAt_eq_of_cover 4 (kres m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v1) = kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.GcnValue

end
-- ==== Proof.RefValue.lean ====
/-
  The reference computes the specification.

  Its last value is read one operation at a time: the two matrix products as sums over the contracted axis, the bias
  through its two broadcasts, the row maximum as a fold of `max` from -∞ over the 16 classes (taking the maximum with -∞
  once more, as the reference does, changes nothing), the sum of exponentials from a zero, and the two subtractions.
-/
import proofs.«138771_g8718783611330_retrytranche1_1952_15_alg».proof.Proof.RefRead
import proofs.«138771_g8718783611330_retrytranche1_1952_15_alg».proof.Proof.Spec
import Idealize.ShloMosaic.PureOps.Reduce

noncomputable section

namespace Cert.ReferenceIdeal.GcnRef

open Idealize.ShloMosaic Idealize.ShloMosaic.ValueIdx
open Cert.ReferenceIdeal Cert.ReferenceIdeal.Gen Cert.ReferenceIdeal.ReadP Cert.GcnSpec

variable (x : (⟨S10000x128, .f32⟩ : BufTy).Contents (Elt Ideal)) (adj : (⟨S10000x10000, .f32⟩ : BufTy).Contents (Elt Ideal))
  (W : (⟨S128x16, .f32⟩ : BufTy).Contents (Elt Ideal)) (b : (⟨S16, .f32⟩ : BufTy).Contents (Elt Ideal))

/-! ## The generated index maps at coordinates -/

theorem lidx_v0 (n : Fin 10000) (c : Fin 16) (k : Fin 128) : lidx_main_v0 (ix2 n c) k = ix2 n k :=
  funext fun a => Fin.ext (by match a with | ⟨0, _⟩ => rfl | ⟨1, _⟩ => rfl)
theorem ridx_v0 (n : Fin 10000) (c : Fin 16) (k : Fin 128) : ridx_main_v0 (ix2 n c) k = ix2 k c :=
  funext fun a => Fin.ext (by match a with | ⟨0, _⟩ => rfl | ⟨1, _⟩ => rfl)
theorem lidx_v1 (r : Fin 10000) (c : Fin 16) (n : Fin 10000) : lidx_main_v1 (ix2 r c) n = ix2 r n :=
  funext fun a => Fin.ext (by match a with | ⟨0, _⟩ => rfl | ⟨1, _⟩ => rfl)
theorem ridx_v1 (r : Fin 10000) (c : Fin 16) (n : Fin 10000) : ridx_main_v1 (ix2 r c) n = ix2 n c :=
  funext fun a => Fin.ext (by match a with | ⟨0, _⟩ => rfl | ⟨1, _⟩ => rfl)
theorem idx_bias (r : Fin 10000) (c : Fin 16) : idx_main_v2 (idx_main_v3 (ix2 r c)) = ix1 c :=
  funext fun a => Fin.ext (by match a with | ⟨0, _⟩ => rfl)
theorem idx_max (r : Fin 10000) (c : Fin 16) : idx_main_call0_v3 (idx_main_call0_v4 (ix2 r c)) = ix1 r :=
  funext fun a => Fin.ext (by match a with | ⟨0, _⟩ => rfl)
theorem idx_lse (r : Fin 10000) (c : Fin 16) : idx_main_call0_v8 (idx_main_call0_v10 (ix2 r c)) = ix1 r :=
  funext fun a => Fin.ext (by match a with | ⟨0, _⟩ => rfl)
theorem idx_sum (r : Fin 10000) (k : Fin 16) : idx_main_call0_v7 (ix1 r) k = ix2 r k :=
  funext fun a => Fin.ext (by match a with | ⟨0, _⟩ => rfl | ⟨1, _⟩ => rfl)

/-- The reduced axis put back: row `r` with class `k` inserted is the index (r, k). -/
theorem lift_row (h : S10000x16.Reduces [1] S10000) (r : Fin 10000) (k : Fin 16) : h.lift (ix1 r) k = ix2 r k :=
  funext fun a => Fin.ext (by match a with | ⟨0, _⟩ => rfl | ⟨1, _⟩ => rfl)

/-! ## The stages -/

/-- `adj · (x · W) + b` at (r, c). -/
theorem logits_apply (r : Fin 10000) (c : Fin 16) : val_main_v4 (F := Ideal) x adj W b (ix2 r c) = logit x adj W b r c := by
  rw [val_main_v4_apply, val_main_v1_apply, val_main_v3_apply, val_main_v2_apply, idx_bias]
  unfold logit
  refine congrArg (· + _) (Finset.sum_congr rfl fun n _ => ?_)
  rw [val_main_v0_apply, lidx_v1, ridx_v1]
  unfold support
  exact congrArg (adj (ix2 r n) * ·) (Finset.sum_congr rfl fun k _ => by rw [lidx_v0, ridx_v0])

/-- The row maximum, with the reference's extra maximum against -∞ absorbed. -/
theorem rowmax_apply (r : Fin 10000) : val_main_call0_v2 (F := Ideal) x adj W b (ix1 r) = rowMax x adj W b r := by
  have hred : S10000x16.Reduces [1] S10000 := by decide
  rw [val_main_call0_v2_apply, val_main_call0_v1_apply, val_main_call0_cst_0_apply]
  unfold val_main_call0_v0
  refine (congrArg (FloatOps.maximumf (F := Ideal) (φ := .f32) (FloatOps.ofBits .f32 0xFF800000#32))
    (Host.reduce_eq_fold_single FloatOps.maximumf _ _ reducesTo_S10000x16_S10000_d1 hred h_S_ (ix1 r))).trans ?_
  refine (max_fold_self (Finset.univ : Finset (Fin 16)) negInf _).trans ?_
  unfold rowMax
  exact congrArg (fun f => (Finset.univ : Finset (Fin 16)).fold max negInf f)
    (funext fun k => (congrArg (val_main_v4 (F := Ideal) x adj W b) (lift_row _ r k)).trans (logits_apply x adj W b r k))

/-- A logit less its row's maximum. -/
theorem shifted_apply (r : Fin 10000) (c : Fin 16) : val_main_call0_v5 (F := Ideal) x adj W b (ix2 r c) = shifted x adj W b r c := by
  rw [val_main_call0_v5_apply, val_main_call0_v4_apply, val_main_call0_v3_apply, idx_max, rowmax_apply, logits_apply]
  rfl

/-- The reference's result is the specification. -/
theorem ref_eq : val_main_v5 (F := Ideal) x adj W b = result x adj W b := by
  funext i
  obtain ⟨r, c, rfl⟩ : ∃ (r : Fin 10000) (c : Fin 16), i = ix2 r c := ⟨i 0, i 1, eq_ix2 i⟩
  rw [val_main_v5_apply, val_main_call0_v10_apply, val_main_call0_v9_apply, val_main_call0_v8_apply, idx_lse,
    val_main_call0_v7_apply, val_main_call0_cst_1_apply, shifted_apply, result_ix2]
  unfold logSumExp
  show shifted x adj W b r c - Ideal.log (Ideal.ofBits .f32 0x00000000#32 + _) = _
  rw [Ideal.ofBits_zero_f32, zero_add]
  refine congrArg (fun z => _ - Ideal.log z) (Finset.sum_congr rfl fun k _ => ?_)
  rw [val_main_call0_v6_apply, idx_sum, shifted_apply]
  rfl

end Cert.ReferenceIdeal.GcnRef

end
-- ==== Proof.lean ====
/-
  A graph-convolution layer with a row-wise log-softmax: the Pallas kernel against its jnp reference, over the extended reals.

  The mathematics. With `x` the node features, `adj` the dense adjacency, `W` the weights and `b` the bias, both programs
  compute, for row `r` and class `c`,

      logit r c  = (∑ₙ adj r n · (∑ₖ x n k · W k c)) + b c
      result r c = (logit r c - M r) - log (∑_c' exp (logit r c' - M r)),      M r = max_c logit r c .

  The kernel walks the adjacency in 25 row blocks of 400. At the first block it forms `x · W` once and keeps it; at every
  block it contracts the kept product with the block's rows in the TRANSPOSED orientation (classes down, rows across), adds
  the bias along the rows, normalises each column, and transposes back. The reference forms `adj · (x · W)` whole and
  normalises each row. Read at an index the two sides are the same sums with the two factors of each product exchanged
  (multiplication of extended reals commutes; no distributive step is taken, so finiteness of the inputs is never used), the
  same fold of `max` from the f32 pattern of -∞ (the reference takes one more maximum against -∞, which changes nothing),
  the same exponentials, the same logarithm and the same differences.

  The pieces: Proof/Spec.lean states the function; Proof/KPayload.lean reads the kernel body's two stored values at an index;
  Proof/KBlock.lean turns one stored block into 400 rows of the function; Proof/KPieces.lean and Proof/KInv.lean say what the
  kept product and the output's buffer hold after each block (the kept product by induction over the blocks);
  Proof/KFinal.lean covers the array by the 25 blocks; Proof/RefValue.lean reads the reference one operation at a time. The
  three frames are the generated ones (the reference's is its run with the result dropped), and the idealization rewrote
  nothing.
-/
import proofs.«138771_g8718783611330_retrytranche1_1952_15_alg».proof.Defs
import proofs.«138771_g8718783611330_retrytranche1_1952_15_alg».proof.Proof.Gen.Kernel
import proofs.«138771_g8718783611330_retrytranche1_1952_15_alg».proof.Proof.Gen.Kernel.Frame
import proofs.«138771_g8718783611330_retrytranche1_1952_15_alg».proof.Proof.Gen.KernelIdeal
import proofs.«138771_g8718783611330_retrytranche1_1952_15_alg».proof.Proof.Gen.KernelIdeal.Frame
import proofs.«138771_g8718783611330_retrytranche1_1952_15_alg».proof.Proof.Gen.ReferenceIdeal
import proofs.«138771_g8718783611330_retrytranche1_1952_15_alg».proof.Proof.Gen.Pre_finite_inputs
import proofs.«138771_g8718783611330_retrytranche1_1952_15_alg».proof.Proof.KFinal
import proofs.«138771_g8718783611330_retrytranche1_1952_15_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both runs end, and both results are the log-softmax of the graph
    convolution of those arguments: the kernel's by the 25 blocks, the reference's operation by operation. -/
theorem algebraic : Cert.algebraic_KernelIdeal_ReferenceIdeal := by
  intro m ρ m' ρ' _ hagree
  refine ⟨fun c => Cert.KernelIdeal.GcnValue.kres m c, Cert.KernelIdeal.GcnValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v5_eq, Cert.ReferenceIdeal.GcnRef.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
